-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16 : Shape := ⟨1, ![16]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16 : Shape := ⟨1, ![16]⟩
abbrev S1x2048x64 : Shape := ⟨3, ![1, 2048, 64]⟩
abbrev S2048x2048 : Shape := ⟨2, ![2048, 2048]⟩
abbrev S2048x64 : Shape := ⟨2, ![2048, 64]⟩
abbrev S1 : Shape := ⟨1, ![1]⟩
abbrev S2048 : Shape := ⟨1, ![2048]⟩
abbrev S2048x1 : Shape := ⟨2, ![2048, 1]⟩

abbrev nBuf : Space → Nat
  | .hbm => 4
  | .vmem => 9
  | .smem => 1
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x2048, .f32⟩
  | .local _ .smem, ⟨0, _⟩ => ⟨S16, .i32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v12 : Index := Scalar.indexCast arg0
  ![v12.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  numel1_S1 : S1.numel = 1
  iota_S2048x2048_d1_w32 : S2048x2048.Iotas .tc 32 [1]
  reduces_S2048x2048_S2048 : S2048x2048.Reduces [1] S2048
  shapeCasts_S2048_S2048x1 : S2048.ShapeCasts S2048x1
  broadcasts_S2048x1_S2048x2048 : S2048x1.Broadcasts S2048x2048
  shapeCasts_S2048x64_S1x2048x64 : S2048x64.ShapeCasts S1x2048x64
  dot_S2048x64_S2048x64_S2048x2048_1_1_0_0_n_n_wf : DotDims.WF S2048x64 S2048x64 S2048x2048 [1] [1] [0] [0] [] []
  dot_S2048x2048_S2048x64_S2048x64_1_0_0_1_n_n_wf : DotDims.WF S2048x2048 S2048x64 S2048x64 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x2048x64.size a
  hwx0_3 : ∀ i : grid0.Coords, EltTy.bits .f32 = 32 ∨ (Rect.block (s := S16x2048x64) S1x2048x64.size (cc0_transform_3 i) (hinb0_3 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev spec0_0 : Pipeline.WinSpec sig grid0.rank :=
  Pipeline.WinSpec.ofSpec (Memref.whole main_arg0) S1x2048x64.size reads0_0 false false 2 stage0_0 sem0_0 nbuf0_0 hstage0_0

abbrev spec0_1 : Pipeline.WinSpec sig grid0.rank :=
  Pipeline.WinSpec.ofSpec (Memref.whole main_arg1) S1x2048x64.size reads0_1 false false 2 stage0_1 sem0_1 nbuf0_1 hstage0_1

abbrev spec0_2 : Pipeline.WinSpec sig grid0.rank :=
  Pipeline.WinSpec.ofSpec (Memref.whole main_arg2) S1x2048x64.size reads0_2 false false 2 stage0_2 sem0_2 nbuf0_2 hstage0_2

abbrev spec0_3 : Pipeline.WinSpec sig grid0.rank :=
  Pipeline.WinSpec.ofSpec (Memref.whole main_v0) S1x2048x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x2048x64 : Shape := ⟨3, ![16, 2048, 64]⟩
abbrev S16 : Shape := ⟨1, ![16]⟩
abbrev S16x2048x2048 : Shape := ⟨3, ![16, 2048, 2048]⟩
abbrev S_ : Shape := ⟨0, ![]⟩
abbrev S2048 : Shape := ⟨1, ![2048]⟩
abbrev S1x1x2048 : Shape := ⟨3, ![1, 1, 2048]⟩
abbrev S16x1x1 : Shape := ⟨3, ![16, 1, 1]⟩
abbrev S16x1x2048 : Shape := ⟨3, ![16, 1, 2048]⟩
abbrev S16x2048 : Shape := ⟨2, ![16, 2048]⟩
abbrev S16x2048x1 : Shape := ⟨3, ![16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16, .i32⟩
  | .hbm, ⟨4, _⟩ => ⟨S16x2048x2048, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S2048, .i32⟩
  | .hbm, ⟨10, _⟩ => ⟨S1x1x2048, .i32⟩
  | .hbm, ⟨11, _⟩ => ⟨S16x1x1, .i32⟩
  | .hbm, ⟨12, _⟩ => ⟨S16x1x2048, .i32⟩
  | .hbm, ⟨13, _⟩ => ⟨S16x1x2048, .i32⟩
  | .hbm, ⟨14, _⟩ => ⟨S16x1x2048, .i1⟩
  | .hbm, ⟨15, _⟩ => ⟨S_, .f32⟩
  | .hbm, ⟨16, _⟩ => ⟨S16x2048x2048, .i1⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S2048_S1x1x2048_2 : S2048.BroadcastsInDim S1x1x2048 (![2] : Fin 1 → Fin S1x1x2048.rank)
  bcast_S16_S16x1x1_0 : S16.BroadcastsInDim S16x1x1 (![0] : Fin 1 → Fin S16x1x1.rank)
  bcast_S1x1x2048_S16x1x2048_0_1_2 : S1x1x2048.BroadcastsInDim S16x1x2048 (![0, 1, 2] : Fin 3 → Fin S16x1x2048.rank)
  bcast_S16x1x1_S16x1x2048_0_1_2 : S16x1x1.BroadcastsInDim S16x1x2048 (![0, 1, 2] : Fin 3 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KernelPiece.lean ====
/-
  What one grid point leaves in the output block, as a pure term of what the point read.

  The body stores the scaled scores of the point's query block against its key block into a scratch array, reads the
  batch's valid length from the table of lengths at the grid coordinate, reads the scratch back, and stores, over the
  whole output block, the softmax-weighted combination of the value block.  The scratch read returns exactly what was
  just stored there, so the block the point leaves is the second payload applied to the first:
  `pay2 values length (pay1 queries keys)`.  Nothing here depends on the float instance.
-/
import proofs.«403634_j34299608826646_1_alg».proof.Proof.Gen.KernelIdeal.Frame
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a rank-3 and of a rank-2 whole-block access are the zero function. -/
theorem zero3 : (![0, 0, 0] : Fin 3 → Nat) = fun _ => 0 := by funext a; fin_cases a <;> rfl
theorem zero2 : (![0, 0] : Fin 2 → Nat) = fun _ => 0 := by funext a; fin_cases a <;> rfl

/-- The word of the table of lengths the body reads at grid coordinate `i`: entry `i` of the table's contents. -/
def lenWord (c : Dev nD) (i : grid0.Coords) (xt0 : TbBuf0 (F := F) c tbM0_0) : Elt F .i32 :=
  View.readAt (Elt F) tbM0_0.view (Rect.unit (s := S16) (k0_off1 i) S1.size (k0_off1_inb i)).toLoadRect xt0
    (Shape.Idx.first (numel1_S1.symm ▸ Nat.one_pos))

/-- The output block after the body at a point: the second payload of the value block, the length word and the
    first payload of the query and key blocks (the scratch read back is what was stored). -/
theorem out_piece (c : Dev nD) (i : grid0.Coords) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S2048x2048 .f32) (harg6 : arg6.IsWhole)
    (x0 : Vec F S1x2048x64 .f32) (x1 : Vec F S1x2048x64 .f32) (x2 : Vec F S1x2048x64 .f32) (xt0 : TbBuf0 (F := F) c tbM0_0) :
    out0_A_3 c i arg2 harg2 arg3 harg3 arg4 harg4 arg5 harg5 arg6 harg6 x0 x1 x2 xt0
      = k0_pay2 x2 (lenWord c i xt0) (k0_pay1 x0 x1) := by
  unfold out0_A_3
  rw [View.read_writes_eq_canon _ _ _ (cover0_A_3 c i arg2 harg2 arg3 harg3 arg4 harg4 arg5 harg5 arg6 harg6 x0 x1 x2 xt0)]
  unfold kernelRun0_A
  dsimp only
  sl_unfold_words
  rw [View.canon_unit_zero zero3]
  simp only [View.readAt_eq_ld, harg2.read_unread, harg3.read_unread, harg4.read_unread,
    View.ld_unit_zero (S := S1x2048x64) zero3, View.readCov_unit_zero (S := S2048x2048) _ zero2]
  rfl

end Cert.KernelIdeal.Attn

end
-- ==== Proof.Spec.lean ====
/-
  The specification: masked scaled dot-product attention over `[16, 2048, 64]` queries, keys and values with a
  valid length per batch, as ONE function of the argument arrays, index by index, on the extended reals.

  For batch `b`, query row `r` and output column `d`:
    * the score of key `k` is `(Σ_e Q[b,r,e] · K[b,k,e]) · 0.125`;
    * a key at or past the batch's valid length (signed comparison of the column number with the length word)
      has its score replaced by the literal `-1e6`;
    * the row's maximum `M` is the fold of `max` over the 2048 masked scores, started from `-∞`;
    * key `k` weighs `exp (x_k - M) / Σ_k' exp (x_k' - M)`;
    * the result is `Σ_k weight_k · V[b,k,d]`.
  Both programs compute exactly this: the kernel one batch per grid point, the reference over all batches at once
  (with `/ sqrt 64` for `· 0.125`, one function on the extended reals, and a `max` against `-∞` that changes nothing).
  Every literal stays as its bit pattern: the same pattern stands on both sides and is never evaluated.
-/
import Idealize.ShloMosaic.PureOps.Ideal
import Idealize.ShloMosaic.Lib.ValueIdx
import Mathlib.Data.Finset.Fold

noncomputable section

namespace Cert.Attn

open Idealize.ShloMosaic Idealize.ShloMosaic.ValueIdx
open scoped BigOperators

/-- The arrays' shape `[16, 2048, 64]` and the lengths' shape `[16]`. -/
abbrev SQKV : Shape := ⟨3, ![16, 2048, 64]⟩
abbrev SLen : Shape := ⟨1, ![16]⟩

/-- The scaled score of a query row against a key row: their inner product times the literal `0.125`. -/
def score (q k : Fin 64 → EReal) : EReal :=
  (∑ e : Fin 64, q e * k e) * Ideal.ofBits .f32 0x3E000000#32

/-- A row of scores with the keys at or past the valid length replaced by the literal `-1e6`. -/
def masked (len : BitVec 32) (s : Fin 2048 → EReal) (k : Fin 2048) : EReal :=
  Scalar.select (IntOp.cmpi .sge (BitVec.ofNat 32 k.val) len) (Ideal.ofBits .f32 0xC9742400#32) (s k)

/-- A row's maximum: the fold of `max` over its 2048 entries from the pattern of `-∞`. -/
def rowMax (x : Fin 2048 → EReal) : EReal :=
  (Finset.univ : Finset (Fin 2048)).fold max (Ideal.ofBits .f32 0xFF800000#32) x

/-- The softmax weight of entry `k` of a row. -/
def weight (x : Fin 2048 → EReal) (k : Fin 2048) : EReal :=
  Ideal.div (Ideal.exp (x k - rowMax x)) (∑ k' : Fin 2048, Ideal.exp (x k' - rowMax x))

/-- A row's softmax weights against a column of the values. -/
def softmaxDot (x v : Fin 2048 → EReal) : EReal :=
  ∑ k : Fin 2048, weight x k * v k

/-- One output entry: the weights of the masked scores against a column of the values. -/
def attend (q : Fin 64 → EReal) (K : Fin 2048 → Fin 64 → EReal) (len : BitVec 32) (v : Fin 2048 → EReal) : EReal :=
  softmaxDot (masked len fun k' => score q (K k')) v

/-- The result at batch `b`, row `r`, column `d`. -/
def attentionAt (Q K V : SQKV.Idx → EReal) (L : SLen.Idx → BitVec 32) (b : Fin 16) (r : Fin 2048) (d : Fin 64) : EReal :=
  attend (fun e => Q (ix3 b r e)) (fun k e => K (ix3 b k e)) (L (ix1 b)) (fun k => V (ix3 b k d))

/-- The whole result array. -/
def attention (Q K V : SQKV.Idx → EReal) (L : SLen.Idx → BitVec 32) : SQKV.Idx → EReal :=
  fun i => attentionAt Q K V L (i 0) (i 1) (i 2)

theorem attention_ix3 (Q K V : SQKV.Idx → EReal) (L : SLen.Idx → BitVec 32) (b : Fin 16) (r : Fin 2048) (d : Fin 64) :
    attention Q K V L (ix3 b r d) = attentionAt Q K V L b r d := rfl

/-- A `max` against the fold's own starting value changes nothing: the fold is at least where it started. -/
theorem max_init_rowMax (x : Fin 2048 → EReal) :
    max (Ideal.ofBits .f32 0xFF800000#32) (rowMax x) = rowMax x :=
  max_eq_right (by unfold rowMax; exact (Finset.le_fold_max _).mpr (Or.inl le_rfl))

end Cert.Attn

end
-- ==== Proof.KernelPayload.lean ====
/-
  The kernel body's two payloads read at an index, on the extended reals.

  First payload (what the body stores into the scratch array): entry `(r, k)` is the inner product of row `r` of
  the query block with row `k` of the key block, times the literal `0.125`: the matrix product into a zero
  accumulator is the plain sum over the 64 contracted coordinates, and the leading unit axis of a block is dropped.

  Second payload (what the body stores over the output block): entry `(·, r, d)` is row `r`'s softmax weights, over
  the scores masked at the valid length, against column `d` of the value block.  Column `k` of the lane counter
  is `k`, so the comparison is the mask's; the lane maximum is the fold of `max` over the row from `-∞`, the lane
  sum is the plain sum over the row, each brought back to the row by a unit column broadcast along it; the second
  matrix product is again the plain sum, over the 2048 keys.
-/
import proofs.«403634_j34299608826646_1_alg».proof.Proof.Gen.KernelIdeal.Skeleton
import proofs.«403634_j34299608826646_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Attn

open Idealize.ShloMosaic Idealize.ShloMosaic.ValueIdx
open Cert.KernelIdeal Cert.KernelIdeal.Gen
open scoped BigOperators

/-! ## The first matrix product's operand indices -/

abbrev dotQK := dot_S2048x64_S2048x64_S2048x2048_1_1_0_0_n_n
abbrev dotPV := dot_S2048x2048_S2048x64_S2048x64_1_0_0_1_n_n

theorem lhs_dotQK_0 (i : S2048x2048.Idx) (q : dot_S2048x64_S2048x64_S2048x2048_1_1_0_0_n_n.contr.Idx) :
    (dot_S2048x64_S2048x64_S2048x2048_1_1_0_0_n_n.lhsIdx i q 0).val = (i 0).val := by
  unfold DotDims.lhsIdx
  rw [dif_neg (show ¬(0 : Fin S2048x64.rank) ∈ dot_S2048x64_S2048x64_S2048x2048_1_1_0_0_n_n.lhsBatch by decide), dif_pos (show (0 : Fin S2048x64.rank) ∈ dot_S2048x64_S2048x64_S2048x2048_1_1_0_0_n_n.lhsNonContracting by decide)]
  rfl
theorem lhs_dotQK_1 (i : S2048x2048.Idx) (q : dot_S2048x64_S2048x64_S2048x2048_1_1_0_0_n_n.contr.Idx) :
    (dot_S2048x64_S2048x64_S2048x2048_1_1_0_0_n_n.lhsIdx i q 1).val = (q ⟨0, by decide⟩).val :=
  dot_S2048x64_S2048x64_S2048x2048_1_1_0_0_n_n.lhsIdx_val_of_single rfl i q
theorem rhs_dotQK_0 (i : S2048x2048.Idx) (q : dot_S2048x64_S2048x64_S2048x2048_1_1_0_0_n_n.contr.Idx) :
    (dot_S2048x64_S2048x64_S2048x2048_1_1_0_0_n_n.rhsIdx i q 0).val = (i 1).val := by
  unfold DotDims.rhsIdx
  rw [dif_neg (show ¬(0 : Fin S2048x64.rank) ∈ dot_S2048x64_S2048x64_S2048x2048_1_1_0_0_n_n.rhsBatch by decide), dif_pos (show (0 : Fin S2048x64.rank) ∈ dot_S2048x64_S2048x64_S2048x2048_1_1_0_0_n_n.rhsNonContracting by decide)]
  rfl
theorem rhs_dotQK_1 (i : S2048x2048.Idx) (q : dot_S2048x64_S2048x64_S2048x2048_1_1_0_0_n_n.contr.Idx) :
    (dot_S2048x64_S2048x64_S2048x2048_1_1_0_0_n_n.rhsIdx i q 1).val = (q ⟨0, by decide⟩).val :=
  dot_S2048x64_S2048x64_S2048x2048_1_1_0_0_n_n.rhsIdx_val_of_single rfl i q

/-- Entry `(r, k)` of the product of a `[2048, 64]` matrix with the transpose of another: the sum over the 64
    contracted coordinates. -/
theorem matmulQK_apply (a b : FVec Ideal S2048x64 .f32) (r k : Fin 2048) :
    matmul (F := Ideal) dot_S2048x64_S2048x64_S2048x2048_1_1_0_0_n_n (some .fp32) a b (constant S2048x2048 .f32 0x00000000#32) (ix2 r k)
      = ∑ e : Fin 64, a (ix2 r e) * b (ix2 k e) := by
  simp only [matmul]
  rw [Ideal.matmul_constant_zero_apply, ← Equiv.sum_comp (ValueIdx.contrEquiv1 dot_S2048x64_S2048x64_S2048x2048_1_1_0_0_n_n 64 rfl rfl).symm]
  refine Finset.sum_congr rfl fun e _ => ?_
  have hk := ValueIdx.contrEquiv1_symm_val dot_S2048x64_S2048x64_S2048x2048_1_1_0_0_n_n 64 rfl rfl e
  have el : dot_S2048x64_S2048x64_S2048x2048_1_1_0_0_n_n.lhsIdx (ix2 r k) ((ValueIdx.contrEquiv1 dot_S2048x64_S2048x64_S2048x2048_1_1_0_0_n_n 64 rfl rfl).symm e) = ix2 r e := funext fun a => Fin.ext (by
    match a with
    | ⟨0, _⟩ => exact lhs_dotQK_0 _ _
    | ⟨1, _⟩ => exact (lhs_dotQK_1 _ _).trans hk)
  have er : dot_S2048x64_S2048x64_S2048x2048_1_1_0_0_n_n.rhsIdx (ix2 r k) ((ValueIdx.contrEquiv1 dot_S2048x64_S2048x64_S2048x2048_1_1_0_0_n_n 64 rfl rfl).symm e) = ix2 k e := funext fun a => Fin.ext (by
    match a with
    | ⟨0, _⟩ => exact rhs_dotQK_0 _ _
    | ⟨1, _⟩ => exact (rhs_dotQK_1 _ _).trans hk)
  rw [el, er]

/-- The first payload at `(r, k)`: the scaled score of query row `r` against key row `k`. -/
theorem pay1_apply (v0 v2 : Vec Ideal S1x2048x64 .f32) (r k : Fin 2048) :
    k0_pay1 (F := Ideal) v0 v2 (ix2 r k)
      = Cert.Attn.score (fun e => v0 (ix3 (0 : Fin 1) r e)) (fun e => v2 (ix3 (0 : Fin 1) k e)) := by
  unfold k0_pay1
  rw [shapeCast_self]
  show matmul (F := Ideal) dot_S2048x64_S2048x64_S2048x2048_1_1_0_0_n_n (some .fp32) _ _ (constant S2048x2048 .f32 0x00000000#32) (ix2 r k) * Ideal.ofBits .f32 0x3E000000#32 = _
  rw [matmulQK_apply]
  unfold Cert.Attn.score
  congr 1
  refine Finset.sum_congr rfl fun e _ => ?_
  rw [shapeCast_1ab_ab_apply, shapeCast_1ab_ab_apply]

/-! ## The mask, the column forms, the lane reductions

Each vector stage of the second payload gets a name, so that the lemmas below are stated and used over these names
and never over the payload's unfolded text. -/

/-- The scores with the keys at or past the valid length replaced by the mask literal. -/
def maskedVec (len : BitVec 32) (s : FVec Ideal S2048x2048 .f32) : FVec Ideal S2048x2048 .f32 :=
  select (cmpi .sge (iota .tc S2048x2048 32 [1] iota_S2048x2048_d1_w32) (broadcast S2048x2048 len))
    (broadcast S2048x2048 (Scalar.ofBits (F := Ideal) .f32 0xC9742400#32)) s

/-- Each row's maximum (the lane maximum from `-∞`), as a column broadcast back along the row. -/
def rowMaxVec (x : FVec Ideal S2048x2048 .f32) : FVec Ideal S2048x2048 .f32 :=
  broadcastTo S2048x2048 (shapeCast S2048x1
    (multiReduction .maximumf [1] S2048 x 0xFF800000#32 reduces_S2048x2048_S2048 (.inl rfl) rfl)
    shapeCasts_S2048_S2048x1) broadcasts_S2048x1_S2048x2048

/-- Each row's sum (the lane sum from zero), as a column broadcast back along the row. -/
def rowSumVec (x : FVec Ideal S2048x2048 .f32) : FVec Ideal S2048x2048 .f32 :=
  broadcastTo S2048x2048 (shapeCast S2048x1
    (multiReduction .add [1] S2048 x 0x00000000#32 reduces_S2048x2048_S2048 (.inl rfl) rfl)
    shapeCasts_S2048_S2048x1) broadcasts_S2048x1_S2048x2048

/-- The exponentials of a matrix's entries less their row's maximum. -/
def expShifted (x : FVec Ideal S2048x2048 .f32) : FVec Ideal S2048x2048 .f32 :=
  exp (subf x (rowMaxVec x))

/-- The softmax weights, row by row. -/
def weightsVec (x : FVec Ideal S2048x2048 .f32) : FVec Ideal S2048x2048 .f32 :=
  divf (expShifted x) (rowSumVec (expShifted x))

/-- The second payload is the weights of the masked scores times the value block, with the block's unit axis
    dropped going in and added coming out. -/
theorem pay2_eq (v4 : Vec Ideal S1x2048x64 .f32) (len : BitVec 32) (v17 : Vec Ideal S2048x2048 .f32) :
    k0_pay2 (F := Ideal) v4 len v17
      = shapeCast S1x2048x64 (matmul (F := Ideal) dot_S2048x2048_S2048x64_S2048x64_1_0_0_1_n_n (some .fp32)
          (weightsVec (maskedVec len v17)) (shapeCast S2048x64 v4 shapeCasts_S1x2048x64_S2048x64 : FVec Ideal S2048x64 .f32)
          (constant S2048x64 .f32 0x00000000#32)) shapeCasts_S2048x64_S1x2048x64 := rfl

/-- The masked scores at `(r, k)`: column `k` of the lane counter is `k`, so the comparison is the mask's. -/
theorem maskedVec_apply (len : BitVec 32) (s : FVec Ideal S2048x2048 .f32) (r k : Fin 2048) :
    maskedVec len s (ix2 r k) = Cert.Attn.masked len (fun k' => s (ix2 r k')) k := by
  unfold maskedVec
  show Scalar.select (IntOp.cmpi .sge (iota .tc S2048x2048 32 [1] iota_S2048x2048_d1_w32 (ix2 r k)) len) _ _ = _
  rw [iota_single_apply]
  rfl

/-- A length-2048 vector viewed as a `[2048, 1]` column reads, at row `r`, the vector's entry `r`. -/
theorem colCast_apply {α : Type} (x : S2048.Idx → α) (h : S2048.ShapeCasts S2048x1) (r : Fin 2048) (z : Fin 1) :
    shapeCast S2048x1 x h (ix2 r z) = x (ix1 r) :=
  shapeCast_apply x h _ _ (by
    rw [Shape.rowMajor_val_one, Shape.rowMajor_val_two]
    show r.val = r.val * 1 + z.val
    omega)

/-- A `[2048, 1]` column broadcast along the rows reads, at `(r, k)`, the column's entry `r`. -/
theorem colBroadcast_apply {α : Type} (y : S2048x1.Idx → α) (h : S2048x1.Broadcasts S2048x2048) (r k : Fin 2048) :
    broadcastTo S2048x2048 y h (ix2 r k) = y (ix2 r (0 : Fin 1)) :=
  broadcastTo_apply y h _ _ (fun a => match a with
    | ⟨0, _⟩ => by show r.val = if (2048 : Nat) = 1 then 0 else r.val; rw [if_neg (by decide)]
    | ⟨1, _⟩ => by show 0 = if (1 : Nat) = 1 then 0 else k.val; rw [if_pos rfl])

/-- The index a reduction over the columns inserts: row `r` with column `k` put back. -/
theorem lift_row (h : S2048x2048.Reduces [1] S2048) (r k : Fin 2048) : h.lift (ix1 r) k = ix2 r k :=
  funext fun a => Fin.ext (by match a with | ⟨0, _⟩ => rfl | ⟨1, _⟩ => rfl)

/-- The lane maximum from `-∞`, brought back along the row, is the row's maximum. -/
theorem rowMaxVec_apply (x : FVec Ideal S2048x2048 .f32) (r k : Fin 2048) :
    rowMaxVec x (ix2 r k) = Cert.Attn.rowMax (fun k' => x (ix2 r k')) := by
  unfold rowMaxVec
  rw [colBroadcast_apply, colCast_apply]
  refine (Ideal.multiReduction_maximumf_single x _ reduces_S2048x2048_S2048 _ _ (ix1 r)).trans ?_
  unfold Cert.Attn.rowMax
  refine congrArg (fun f => (Finset.univ : Finset (Fin 2048)).fold max (Ideal.ofBits .f32 0xFF800000#32) f) ?_
  funext k'
  exact congrArg x (lift_row reduces_S2048x2048_S2048 r k')

/-- The lane sum from zero, brought back along the row, is the row's sum. -/
theorem rowSumVec_apply (x : FVec Ideal S2048x2048 .f32) (r k : Fin 2048) :
    rowSumVec x (ix2 r k) = ∑ k' : Fin 2048, x (ix2 r k') := by
  unfold rowSumVec
  rw [colBroadcast_apply, colCast_apply]
  refine (Ideal.multiReduction_add_single x _ reduces_S2048x2048_S2048 _ _ (ix1 r)).trans ?_
  refine Finset.sum_congr rfl fun k' _ => ?_
  exact congrArg x (lift_row reduces_S2048x2048_S2048 r k')

/-- The shifted exponentials at `(r, k)`. -/
theorem expShifted_apply (x : FVec Ideal S2048x2048 .f32) (r k : Fin 2048) :
    expShifted x (ix2 r k) = Ideal.exp (x (ix2 r k) - Cert.Attn.rowMax (fun k' => x (ix2 r k'))) := by
  unfold expShifted
  show Ideal.exp (x (ix2 r k) - rowMaxVec x (ix2 r k)) = _
  rw [rowMaxVec_apply]

/-- The weights at `(r, k)`: the softmax weight of entry `k` of row `r`. -/
theorem weightsVec_apply (x : FVec Ideal S2048x2048 .f32) (r k : Fin 2048) :
    weightsVec x (ix2 r k) = Cert.Attn.weight (fun k' => x (ix2 r k')) k := by
  unfold weightsVec
  show Ideal.div (expShifted x (ix2 r k)) (rowSumVec (expShifted x) (ix2 r k)) = _
  rw [rowSumVec_apply, expShifted_apply]
  unfold Cert.Attn.weight
  refine congrArg (Ideal.div _) ?_
  refine Finset.sum_congr rfl fun k' _ => ?_
  rw [expShifted_apply]

/-! ## The second matrix product's operand indices -/

theorem lhs_dotPV_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_dotPV_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhs_dotPV_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs_dotPV_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- Entry `(r, d)` of the product of a `[2048, 2048]` matrix with a `[2048, 64]` one: the sum over the 2048
    contracted coordinates. -/
theorem matmulPV_apply (a : FVec Ideal S2048x2048 .f32) (b : FVec Ideal S2048x64 .f32) (r : Fin 2048) (d : Fin 64) :
    matmul (F := Ideal) dot_S2048x2048_S2048x64_S2048x64_1_0_0_1_n_n (some .fp32) a b (constant S2048x64 .f32 0x00000000#32) (ix2 r d)
      = ∑ k : Fin 2048, a (ix2 r k) * b (ix2 k d) := by
  simp only [matmul]
  rw [Ideal.matmul_constant_zero_apply, ← Equiv.sum_comp (ValueIdx.contrEquiv1 dot_S2048x2048_S2048x64_S2048x64_1_0_0_1_n_n 2048 rfl rfl).symm]
  refine Finset.sum_congr rfl fun k _ => ?_
  have hk := ValueIdx.contrEquiv1_symm_val dot_S2048x2048_S2048x64_S2048x64_1_0_0_1_n_n 2048 rfl rfl k
  have el : dot_S2048x2048_S2048x64_S2048x64_1_0_0_1_n_n.lhsIdx (ix2 r d) ((ValueIdx.contrEquiv1 dot_S2048x2048_S2048x64_S2048x64_1_0_0_1_n_n 2048 rfl rfl).symm k) = ix2 r k := funext fun a => Fin.ext (by
    match a with
    | ⟨0, _⟩ => exact lhs_dotPV_0 _ _
    | ⟨1, _⟩ => exact (lhs_dotPV_1 _ _).trans hk)
  have er : dot_S2048x2048_S2048x64_S2048x64_1_0_0_1_n_n.rhsIdx (ix2 r d) ((ValueIdx.contrEquiv1 dot_S2048x2048_S2048x64_S2048x64_1_0_0_1_n_n 2048 rfl rfl).symm k) = ix2 k d := funext fun a => Fin.ext (by
    match a with
    | ⟨0, _⟩ => exact (rhs_dotPV_0 _ _).trans hk
    | ⟨1, _⟩ => exact rhs_dotPV_1 _ _)
  rw [el, er]

/-! ## The second payload -/

/-- The second payload at `(·, r, d)`: row `r`'s softmax weights, over the scores masked at the valid length,
    against column `d` of the value block. -/
theorem pay2_apply (v4 : Vec Ideal S1x2048x64 .f32) (len : BitVec 32) (v17 : Vec Ideal S2048x2048 .f32)
    (u : Fin 1) (r : Fin 2048) (d : Fin 64) :
    k0_pay2 (F := Ideal) v4 len v17 (ix3 u r d)
      = Cert.Attn.softmaxDot (Cert.Attn.masked len fun k' => v17 (ix2 r k')) (fun k => v4 (ix3 (0 : Fin 1) k d)) := by
  rw [pay2_eq, shapeCast_ab_1ab_apply, matmulPV_apply]
  unfold Cert.Attn.softmaxDot
  refine Finset.sum_congr rfl fun k _ => ?_
  rw [shapeCast_1ab_ab_apply, weightsVec_apply]
  refine congrArg (fun w => Cert.Attn.weight w k * v4 (ix3 (0 : Fin 1) k d)) ?_
  funext k'
  exact maskedVec_apply len v17 r k'

end Cert.KernelIdeal.Attn

end
-- ==== Proof.KernelValue.lean ====
/-
  The kernel's result array, as one function of its argument arrays.

  The grid has one point per batch.  At point `t` each of the four windows (queries, keys, values, result) holds
  block `t` of its array: the `[1, 2048, 64]` slab of batch `t`, so entry `(0, r, e)` of a block is entry
  `(t, r, e)` of the array; and the valid-length word the body reads from the table at the grid coordinate is entry
  `t` of the lengths.  With the two payloads read at an index, what point `t` writes back is therefore block `t` of
  the attention function of the whole arrays.  Every index `(b, r, d)` of the result lies in point `b`'s block, so the
  sixteen blocks cover the array, and after the run the array holds the attention function everywhere.
  The index maps read nothing from the table of lengths, so the pipeline's side condition on the table's contents is
  trivially true: the run needs no assumption on the lengths.
-/
import proofs.«403634_j34299608826646_1_alg».proof.Proof.Gen.KernelIdeal.Frame
import proofs.«403634_j34299608826646_1_alg».proof.Proof.KernelPiece
import proofs.«403634_j34299608826646_1_alg».proof.Proof.KernelPayload
import proofs.«403634_j34299608826646_1_alg».proof.Proof.Spec
import Idealize.ShloMosaic.Lib.Pipeline.Value
import Idealize.ShloMosaic.Lib.ValueIdx

set_option maxRecDepth 16384

noncomputable section

namespace Cert.KernelIdeal.Attn

open Idealize.ShloMosaic Idealize.ShloMosaic.TcCoe Idealize.ShloMosaic.ValueIdx Idealize.SL.Sem
open Cert.KernelIdeal Cert.KernelIdeal.Gen
open Idealize.ShloMosaic.Pipeline (Dat)

/-! ## Facts that hold at every float instance -/

section AnyInstance

variable {F : FTy → Type} [FloatOps F]
variable (m : (ℓ : Loc nD τ sig) → Buf (Elt F) ℓ)

/-- The pipeline's side condition on the table of lengths: no index map reads the table, so it is `True`. -/
theorem ok : Ok m := by
  show ok0 _
  unfold ok0
  trivial

/-- A grid point as a batch number. -/
def batch (t : Fin grid0.N) : Fin 16 := ⟨t.val, by have h1 := t.isLt; have h2 := N_0; omega⟩

/-- The one grid coordinate of point `t` is `t`. -/
theorem coords_facts : ∀ t : Fin grid0.N, (grid0.coords t 0).val = t.val := by decide +kernel

/-- Every window's block index at point `t` is `(t, 0, 0)`. -/
theorem idx_facts : ∀ t : Fin grid0.N,
    cc0_transform_0 (grid0.coords t) = ![t.val, 0, 0] ∧ cc0_transform_1 (grid0.coords t) = ![t.val, 0, 0]
    ∧ cc0_transform_2 (grid0.coords t) = ![t.val, 0, 0] ∧ cc0_transform_3 (grid0.coords t) = ![t.val, 0, 0] := by decide +kernel

/-- The valid-length word read at point `t` is entry `t` of the table's contents. -/
theorem lenWord_eq (c : Dev nD) (t : Fin grid0.N) (xt0 : TbBuf0 (F := F) c tbM0_0) :
    lenWord c (grid0.coords t) xt0 = (xt0 : S16.Idx → Elt F .i32) (ix1 (batch t)) := by
  unfold lenWord
  show xt0 _ = xt0 _
  congr 1
  funext a
  apply Fin.ext
  match a with
  | ⟨0, _⟩ =>
    show k0_off1 (grid0.coords t) 0 + 1 * (Shape.Idx.first (s := S1) _ 0).val = t.val
    rw [k0_off1_eq]
    have h0 : (Shape.Idx.first (s := S1) lenWord._proof_1 0).val < 1 := (Shape.Idx.first (s := S1) _ 0).isLt
    have h1 := coords_facts t
    show (grid0.coords t 0).val + 1 * _ = t.val
    omega

/-- Entry `(0, r, e)` of the query block at point `t` is entry `(t, r, e)` of the queries. -/
theorem qblk_apply (c : Dev nD) (t : Fin (cfgM m (ok m)).N) (r : Fin 2048) (e : Fin 64) :
    iblk m (ok m) c 0 t (ix3 (0 : Fin 1) r e) = (V m c main_arg0 : S16x2048x64.Idx → Elt F .f32) (ix3 (batch t) r e) := by
  show V m c main_arg0 ((((cfgM m (ok m)).win 0).blk t).view.emb (ix3 (0 : Fin 1) r e)) = V m c main_arg0 (ix3 (batch t) r e)
  congr 1
  funext a
  apply Fin.ext
  match a with
  | ⟨0, _⟩ =>
    have h := congrFun (idx_facts t).1 (0 : Fin 3)
    show cc0_transform_0 (grid0.coords t) (0 : Fin 3) * 1 + 1 * 0 = t.val
    rw [h]; show t.val * 1 + 1 * 0 = t.val; omega
  | ⟨1, _⟩ =>
    have h := congrFun (idx_facts t).1 (1 : Fin 3)
    show cc0_transform_0 (grid0.coords t) (1 : Fin 3) * 2048 + 1 * r.val = r.val
    rw [h]; show 0 * 2048 + 1 * r.val = r.val; omega
  | ⟨2, _⟩ =>
    have h := congrFun (idx_facts t).1 (2 : Fin 3)
    show cc0_transform_0 (grid0.coords t) (2 : Fin 3) * 64 + 1 * e.val = e.val
    rw [h]; show 0 * 64 + 1 * e.val = e.val; omega

/-- Entry `(0, k, e)` of the key block at point `t` is entry `(t, k, e)` of the keys. -/
theorem kblk_apply (c : Dev nD) (t : Fin (cfgM m (ok m)).N) (k : Fin 2048) (e : Fin 64) :
    iblk m (ok m) c 1 t (ix3 (0 : Fin 1) k e) = (V m c main_arg1 : S16x2048x64.Idx → Elt F .f32) (ix3 (batch t) k e) := by
  show V m c main_arg1 ((((cfgM m (ok m)).win 1).blk t).view.emb (ix3 (0 : Fin 1) k e)) = V m c main_arg1 (ix3 (batch t) k e)
  congr 1
  funext a
  apply Fin.ext
  match a with
  | ⟨0, _⟩ =>
    have h := congrFun (idx_facts t).2.1 (0 : Fin 3)
    show cc0_transform_1 (grid0.coords t) (0 : Fin 3) * 1 + 1 * 0 = t.val
    rw [h]; show t.val * 1 + 1 * 0 = t.val; omega
  | ⟨1, _⟩ =>
    have h := congrFun (idx_facts t).2.1 (1 : Fin 3)
    show cc0_transform_1 (grid0.coords t) (1 : Fin 3) * 2048 + 1 * k.val = k.val
    rw [h]; show 0 * 2048 + 1 * k.val = k.val; omega
  | ⟨2, _⟩ =>
    have h := congrFun (idx_facts t).2.1 (2 : Fin 3)
    show cc0_transform_1 (grid0.coords t) (2 : Fin 3) * 64 + 1 * e.val = e.val
    rw [h]; show 0 * 64 + 1 * e.val = e.val; omega

/-- Entry `(0, k, d)` of the value block at point `t` is entry `(t, k, d)` of the values. -/
theorem vblk_apply (c : Dev nD) (t : Fin (cfgM m (ok m)).N) (k : Fin 2048) (d : Fin 64) :
    iblk m (ok m) c 2 t (ix3 (0 : Fin 1) k d) = (V m c main_arg2 : S16x2048x64.Idx → Elt F .f32) (ix3 (batch t) k d) := by
  show V m c main_arg2 ((((cfgM m (ok m)).win 2).blk t).view.emb (ix3 (0 : Fin 1) k d)) = V m c main_arg2 (ix3 (batch t) k d)
  congr 1
  funext a
  apply Fin.ext
  match a with
  | ⟨0, _⟩ =>
    have h := congrFun (idx_facts t).2.2.1 (0 : Fin 3)
    show cc0_transform_2 (grid0.coords t) (0 : Fin 3) * 1 + 1 * 0 = t.val
    rw [h]; show t.val * 1 + 1 * 0 = t.val; omega
  | ⟨1, _⟩ =>
    have h := congrFun (idx_facts t).2.2.1 (1 : Fin 3)
    show cc0_transform_2 (grid0.coords t) (1 : Fin 3) * 2048 + 1 * k.val = k.val
    rw [h]; show 0 * 2048 + 1 * k.val = k.val; omega
  | ⟨2, _⟩ =>
    have h := congrFun (idx_facts t).2.2.1 (2 : Fin 3)
    show cc0_transform_2 (grid0.coords t) (2 : Fin 3) * 64 + 1 * d.val = d.val
    rw [h]; show 0 * 64 + 1 * d.val = d.val; omega

/-- Entry `(u, r, d)` of the result block at point `t` sits at entry `(t, r, d)` of the result array. -/
theorem outEmb (t : Fin (cfgM m (ok m)).N) (u : Fin 1) (r : Fin 2048) (d : Fin 64) :
    ((((cfgM m (ok m)).win 3).blk t).view.emb (ix3 u r d) : S16x2048x64.Idx) = ix3 (batch t) r d := by
  funext a
  apply Fin.ext
  match a with
  | ⟨0, _⟩ =>
    have h := congrFun (idx_facts t).2.2.2 (0 : Fin 3)
    have hu : u.val = 0 := by omega
    show cc0_transform_3 (grid0.coords t) (0 : Fin 3) * 1 + 1 * u.val = t.val
    rw [h, hu]; show t.val * 1 + 1 * 0 = t.val; omega
  | ⟨1, _⟩ =>
    have h := congrFun (idx_facts t).2.2.2 (1 : Fin 3)
    show cc0_transform_3 (grid0.coords t) (1 : Fin 3) * 2048 + 1 * r.val = r.val
    rw [h]; show 0 * 2048 + 1 * r.val = r.val; omega
  | ⟨2, _⟩ =>
    have h := congrFun (idx_facts t).2.2.2 (2 : Fin 3)
    show cc0_transform_3 (grid0.coords t) (2 : Fin 3) * 64 + 1 * d.val = d.val
    rw [h]; show 0 * 64 + 1 * d.val = d.val; omega

/-- Two functions on a `[1, 2048, 64]` block are equal when they agree at every `(u, r, d)`. -/
theorem block_ext {α : Type} (f g : S1x2048x64.Idx → α)
    (h : ∀ (u : Fin 1) (r : Fin 2048) (d : Fin 64), f (ix3 u r d) = g (ix3 u r d)) : f = g :=
  funext fun j => by rw [eq_ix3 j]; exact h _ _ _

/-- An index of the result array is in point `t`'s block iff each coordinate is in the block's range on its axis. -/
theorem mem_blk (t : Fin (cfgM m (ok m)).N) (i : S16x2048x64.Idx) :
    i ∈ (((cfgM m (ok m)).win 3).blk t).view.set ↔ ∀ a : Fin 3, ((cfgM m (ok m)).win 3).index t a * S1x2048x64.size a ≤ (i a).val ∧ (i a).val < ((cfgM m (ok m)).win 3).index t a * S1x2048x64.size a + S1x2048x64.size a := by
  have e : (((cfgM m (ok m)).win 3).blk t).view.set = (((cfgM m (ok m)).win 3).rect t : Rect main_v0.ty.shape).set :=
    View.set_slice_whole main_v0 (((cfgM m (ok m)).win 3).rect t)
  exact (Eq.to_iff (congrArg (fun s => i ∈ s) e)).trans Rect.mem_set_unit

/-- Every index of the result array lies in the block of the point of its batch. -/
theorem cover (i : S16x2048x64.Idx) :
    ∃ t : Fin (cfgM m (ok m)).N, ((cfgM m (ok m)).win 3).flush t = true ∧ i ∈ (((cfgM m (ok m)).win 3).blk t).view.set := by
  have hi0 : (i 0).val < 16 := (i 0).isLt
  have hi1 : (i 1).val < 2048 := (i 1).isLt
  have hi2 : (i 2).val < 64 := (i 2).isLt
  have hN := N_0
  let t : Fin grid0.N := ⟨(i 0).val, by omega⟩
  refine ⟨t, flush0_3 (adm m (ok m)) t, ?_⟩
  rw [mem_blk]
  intro a
  match a with
  | ⟨0, _⟩ =>
    have h := congrFun (idx_facts t).2.2.2 (0 : Fin 3)
    show cc0_transform_3 (grid0.coords t) (0 : Fin 3) * 1 ≤ (i 0).val ∧ (i 0).val < cc0_transform_3 (grid0.coords t) (0 : Fin 3) * 1 + 1
    rw [h]; show (i 0).val * 1 ≤ (i 0).val ∧ (i 0).val < (i 0).val * 1 + 1; omega
  | ⟨1, _⟩ =>
    have h := congrFun (idx_facts t).2.2.2 (1 : Fin 3)
    show cc0_transform_3 (grid0.coords t) (1 : Fin 3) * 2048 ≤ (i 1).val ∧ (i 1).val < cc0_transform_3 (grid0.coords t) (1 : Fin 3) * 2048 + 2048
    rw [h]; show 0 * 2048 ≤ (i 1).val ∧ (i 1).val < 0 * 2048 + 2048; omega
  | ⟨2, _⟩ =>
    have h := congrFun (idx_facts t).2.2.2 (2 : Fin 3)
    show cc0_transform_3 (grid0.coords t) (2 : Fin 3) * 64 ≤ (i 2).val ∧ (i 2).val < cc0_transform_3 (grid0.coords t) (2 : Fin 3) * 64 + 64
    rw [h]; show 0 * 64 ≤ (i 2).val ∧ (i 2).val < 0 * 64 + 64; omega

end AnyInstance

/-! ## The value, on the extended reals -/

variable (m : (ℓ : Loc nD τ sig) → Buf (Elt Ideal) ℓ) (ρ : Dev nD → PrngReg)

/-- The argument arrays as the region finds them, at their literal types. -/
abbrev Qarr (c : Dev nD) : S16x2048x64.Idx → EReal := V m c main_arg0
abbrev Karr (c : Dev nD) : S16x2048x64.Idx → EReal := V m c main_arg1
abbrev Varr (c : Dev nD) : S16x2048x64.Idx → EReal := V m c main_arg2
abbrev Larr (c : Dev nD) : S16.Idx → BitVec 32 := V m c main_arg3

/-- The attention function of the argument arrays. -/
def result (c : Dev nD) : S16x2048x64.Idx → EReal :=
  Cert.Attn.attention (Qarr m c) (Karr m c) (Varr m c) (Larr m c)

/-- The table's contents the body is handed are the lengths array. -/
theorem tbl_eq (c : Dev nD) : (tbl m 0 : S16.Idx → BitVec 32) = Larr m c := (V_pre m c 0).symm

/-- WHAT POINT `t` WRITES BACK is block `t` of the attention function of the argument arrays. -/
theorem flushed_eq (c : Dev nD) (t : Fin (cfgM m (ok m)).N) :
    (dats m (ok m) 0 c).flushed 3 t = (((cfgM m (ok m)).win 3).blk t).view.read (Elt Ideal) (result m c) := by
  show ((cfgM m (ok m)).win 3).cut (grid0.coords t) ((dats m (ok m) 0 c).after 3 t) = _
  rw [after0_3]
  unfold outsAt0
  refine (congrArg (((cfgM m (ok m)).win 3).cut (grid0.coords t))
    (out_piece c (grid0.coords t) (ms0_0 m (ok m) t) (hs0_0 m (ok m) t) (ms0_1 m (ok m) t) (hs0_1 m (ok m) t)
      (ms0_2 m (ok m) t) (hs0_2 m (ok m) t) (ms0_3 m (ok m) t) (hs0_3 m (ok m) t) scM0_0 (Memref.isWhole_whole _)
      (iblk m (ok m) c 0 t) (iblk m (ok m) c 1 t) (iblk m (ok m) c 2 t) (tbl m 0))).trans ?_
  refine block_ext _ _ fun u r d => ?_
  show k0_pay2 (F := Ideal) (iblk m (ok m) c 2 t) (lenWord c (grid0.coords t) (tbl m 0)) (k0_pay1 (iblk m (ok m) c 0 t) (iblk m (ok m) c 1 t)) (ix3 u r d)
      = result m c ((((cfgM m (ok m)).win 3).blk t).view.emb (ix3 u r d))
  refine (pay2_apply (iblk m (ok m) c 2 t) (lenWord c (grid0.coords t) (tbl m 0)) (k0_pay1 (iblk m (ok m) c 0 t) (iblk m (ok m) c 1 t)) u r d).trans ?_
  rw [outEmb m t u r d]
  have hlen : lenWord c (grid0.coords t) (tbl m 0) = Larr m c (ix1 (batch t)) :=
    (lenWord_eq c t (tbl m 0)).trans (congrFun (tbl_eq m c) _)
  have hs : (fun k' : Fin 2048 => k0_pay1 (F := Ideal) (iblk m (ok m) c 0 t) (iblk m (ok m) c 1 t) (ix2 r k'))
      = fun k' => Cert.Attn.score (fun e => Qarr m c (ix3 (batch t) r e)) (fun e => Karr m c (ix3 (batch t) k' e)) :=
    funext fun k' => (pay1_apply (iblk m (ok m) c 0 t) (iblk m (ok m) c 1 t) r k').trans (by
      refine congr (congrArg Cert.Attn.score ?_) ?_
      · funext e; exact qblk_apply m c t r e
      · funext e; exact kblk_apply m c t k' e)
  have hv : (fun k : Fin 2048 => iblk m (ok m) c 2 t (ix3 (0 : Fin 1) k d)) = fun k => Varr m c (ix3 (batch t) k d) :=
    funext fun k => vblk_apply m c t k d
  rw [hlen, hs, hv]
  rfl

/-- THE ARRAY after the run: the attention function of the argument arrays, everywhere. -/
theorem final (c : Dev nD) : (dats m (ok m) 0 c).arrAt 3 (cfgM m (ok m)).N = result m c :=
  (dats m (ok m) 0 c).arrAt_eq_of_cover 3 (result m c) (fun t _ => flushed_eq m c t) (cover m)

/-- The run, read: the result array ends at the attention function of the argument arrays, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).2 main_arg3 (by decide : main_arg3 ∈ Pipeline.restRefs sig spec0)).trans (V_main_arg3 m c)⟩)
    (run_main m ρ (ok m))

end Cert.KernelIdeal.Attn

end
-- ==== Proof.Consts.lean ====
/-
  The two float literals whose values the proof needs, and the one law that joins the two programs' scalings.
  The kernel multiplies the raw scores by the literal 0.125; the reference divides them by the square root of
  the literal 64.  At exact arithmetic 0.125 denotes the rational 1/8 and 64 the real 64, whose square root is 8,
  and on the extended reals dividing by a nonzero real is multiplying by its reciprocal at EVERY argument,
  the two infinities included: so the two scalings are one function, with no finiteness assumed.
-/
import Idealize.ShloMosaic.PureOps.Ideal

noncomputable section

namespace Cert.Attn.Consts

open Idealize.ShloMosaic

/-- The pattern of `0.125` denotes the rational `1/8`. -/
theorem ofBits_eighth : Ideal.ofBits .f32 0x3E000000#32 = ((1 / 8 : ℝ) : EReal) := by
  simp [Ideal.ofBits, Ideal.ieee, -EReal.coe_mul]; norm_num

/-- The pattern of `64.0` denotes the real `64`. -/
theorem ofBits_sixtyfour : Ideal.ofBits .f32 0x42800000#32 = ((64 : ℝ) : EReal) := by
  simp [Ideal.ofBits, Ideal.ieee, -EReal.coe_mul]; norm_num

/-- The square root of 64 is 8, as extended reals. -/
theorem sqrt_sixtyfour : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-- Dividing by `sqrt 64` is multiplying by `0.125`, at every extended real. -/
theorem div_sqrt_eq_mul_eighth (x : EReal) :
    Ideal.div x (Ideal.sqrt (Ideal.ofBits .f32 0x42800000#32)) = x * Ideal.ofBits .f32 0x3E000000#32 := by
  rw [ofBits_sixtyfour, sqrt_sixtyfour, ofBits_eighth, Ideal.div_coe (by norm_num : (8 : ℝ) ≠ 0)]

end Cert.Attn.Consts

end
-- ==== Proof.RefValue.lean ====
/-
  The reference is the specification.  The reference program computes masked scaled dot-product attention over all
  batches at once, as a chain of whole-array stages: the batched inner products of queries and keys, their quotient by
  the square root of 64, the replacement of the keys at or past a batch's valid length by the literal -1e6, the row
  maximum (folded from -∞ and then taken once more against -∞), the exponentials of the differences, their row sum
  (started from the zero word), the quotient, and the batched inner products with the values.

  Read at one index, each stage is the corresponding piece of the specification at that batch, row and column:
  the quotient by sqrt 64 is the product with 0.125 at every extended real, the second maximum against -∞ changes
  nothing, and a sum started from zero is the sum.  The stages are read in program order, each lemma citing the one
  before it, over explicit coordinates (b : batch, r : query row, k : key, d : output column).
-/
import proofs.«403634_j34299608826646_1_alg».proof.Proof.Gen.ReferenceIdeal.Read
import proofs.«403634_j34299608826646_1_alg».proof.Proof.Spec
import proofs.«403634_j34299608826646_1_alg».proof.Proof.Consts
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Attn
open scoped BigOperators

/-- The masked scaled scores of query row `r` of batch `b` against every key: the row the softmax is taken over. -/
def row (x0 x1 : (⟨S16x2048x64, .f32⟩ : BufTy).Contents (Elt Ideal)) (x3 : (⟨S16, .i32⟩ : BufTy).Contents (Elt Ideal))
    (b : Fin 16) (r : Fin 2048) : Fin 2048 → EReal :=
  masked (x3 (ix1 b)) fun k' => score (fun e => x0 (ix3 b r e)) (fun e => x1 (ix3 b k' e))

/-- The scaled score: the inner product of query row `r` and key row `k`, divided by sqrt 64, is the
    specification's score (the inner product times 0.125). -/
theorem score_at (x0 x1 : (⟨S16x2048x64, .f32⟩ : BufTy).Contents (Elt Ideal)) (b : Fin 16) (r k : Fin 2048) :
    val_main_v3 (F := Ideal) x0 x1 (ix3 b r k) = score (fun e => x0 (ix3 b r e)) (fun e => x1 (ix3 b k e)) := by
  rw [val_main_v3_apply, val_main_v0_apply, val_main_v2_apply, val_main_v1_apply, val_main_cst_apply]
  simp only [Ideal.hostDivf_def, Ideal.hostUnary_sqrt_def, Ideal.ofBits_def]
  rw [Consts.div_sqrt_eq_mul_eighth]
  unfold score
  refine congrArg (· * _) (Finset.sum_congr rfl fun e _ => ?_)
  have el : lidx_main_v0 (ix3 b r k) e = ix3 b r e :=
    funext fun a => Fin.ext (by match a with | ⟨0, _⟩ => rfl | ⟨1, _⟩ => rfl | ⟨2, _⟩ => rfl)
  have er : ridx_main_v0 (ix3 b r k) e = ix3 b k e :=
    funext fun a => Fin.ext (by match a with | ⟨0, _⟩ => rfl | ⟨1, _⟩ => rfl | ⟨2, _⟩ => rfl)
  rw [el, er]

/-- The masked score: the column counter compared (signed, at or past) with the batch's valid length selects the
    literal -1e6 over the score. -/
theorem masked_at (x0 x1 : (⟨S16x2048x64, .f32⟩ : BufTy).Contents (Elt Ideal)) (x3 : (⟨S16, .i32⟩ : BufTy).Contents (Elt Ideal))
    (b : Fin 16) (r k : Fin 2048) :
    val_main_v10 (F := Ideal) x0 x1 x3 (ix3 b r k) = row x0 x1 x3 b r k := by
  rw [val_main_v10_apply, val_main_call0_v0_apply, val_main_v9_apply, val_main_v7_apply, val_main_v5_apply,
    val_main_v4_apply, val_main_v8_apply, val_main_v6_apply, val_main_call0_v1_apply, val_main_cst_0_apply, score_at]
  have e6 : idx_main_v6 (idx_main_v8 (idx_main_call0_v0 (ix3 b r k))) = ix1 b :=
    funext fun a => Fin.ext (by match a with | ⟨0, _⟩ => rfl)
  rw [e6]
  rfl

/-- The row maximum: the fold of the maximum over the key axis from -∞, taken once more against -∞, is the
    specification's row maximum of the masked row. -/
theorem rowMax_at (x0 x1 : (⟨S16x2048x64, .f32⟩ : BufTy).Contents (Elt Ideal)) (x3 : (⟨S16, .i32⟩ : BufTy).Contents (Elt Ideal))
    (b : Fin 16) (r : Fin 2048) :
    val_main_v13 (F := Ideal) x0 x1 x3 (ix2 b r) = rowMax (row x0 x1 x3 b r) := by
  have hR : S16x2048x2048.Reduces [2] S16x2048 := by decide
  have h11 : val_main_v11 (F := Ideal) x0 x1 x3 (ix2 b r) = rowMax (row x0 x1 x3 b r) := by
    unfold val_main_v11
    refine (Host.reduce_eq_fold_single _ _ _ reducesTo_S16x2048x2048_S16x2048_d2 hR h_S_ (ix2 b r)).trans ?_
    unfold rowMax
    refine Finset.fold_congr fun k _ => ?_
    have e : hR.lift (ix2 b r) k = ix3 b r k :=
      funext fun a => Fin.ext (by match a with | ⟨0, _⟩ => rfl | ⟨1, _⟩ => rfl | ⟨2, _⟩ => rfl)
    show val_main_v10 (F := Ideal) x0 x1 x3 (hR.lift (ix2 b r) k) = _
    rw [e]
    exact masked_at x0 x1 x3 b r k
  rw [val_main_v13_apply, val_main_v12_apply, val_main_cst_2_apply, h11]
  exact max_init_rowMax _

/-- The exponential of a masked score less its row's maximum. -/
theorem exp_at (x0 x1 : (⟨S16x2048x64, .f32⟩ : BufTy).Contents (Elt Ideal)) (x3 : (⟨S16, .i32⟩ : BufTy).Contents (Elt Ideal))
    (b : Fin 16) (r k : Fin 2048) :
    val_main_v17 (F := Ideal) x0 x1 x3 (ix3 b r k)
      = Ideal.exp (row x0 x1 x3 b r k - rowMax (row x0 x1 x3 b r)) := by
  rw [val_main_v17_apply, val_main_v16_apply, val_main_v15_apply, val_main_v14_apply, masked_at]
  have e : idx_main_v14 (idx_main_v15 (ix3 b r k)) = ix2 b r :=
    funext fun a => Fin.ext (by match a with | ⟨0, _⟩ => rfl | ⟨1, _⟩ => rfl)
  rw [e, rowMax_at]
  rfl

/-- The row's sum of exponentials: started from the zero word, it is the sum over the keys. -/
theorem sum_at (x0 x1 : (⟨S16x2048x64, .f32⟩ : BufTy).Contents (Elt Ideal)) (x3 : (⟨S16, .i32⟩ : BufTy).Contents (Elt Ideal))
    (b : Fin 16) (r : Fin 2048) :
    val_main_v18 (F := Ideal) x0 x1 x3 (ix2 b r)
      = ∑ k' : Fin 2048, Ideal.exp (row x0 x1 x3 b r k' - rowMax (row x0 x1 x3 b r)) := by
  rw [val_main_v18_apply, val_main_cst_3_apply, Ideal.ofBits_def, Ideal.ofBits_zero_f32, zero_add]
  refine Finset.sum_congr rfl fun k _ => ?_
  have e : idx_main_v18 (ix2 b r) k = ix3 b r k :=
    funext fun a => Fin.ext (by match a with | ⟨0, _⟩ => rfl | ⟨1, _⟩ => rfl | ⟨2, _⟩ => rfl)
  rw [e, exp_at]

/-- The softmax weight of key `k` in its row. -/
theorem weight_at (x0 x1 : (⟨S16x2048x64, .f32⟩ : BufTy).Contents (Elt Ideal)) (x3 : (⟨S16, .i32⟩ : BufTy).Contents (Elt Ideal))
    (b : Fin 16) (r k : Fin 2048) :
    val_main_v21 (F := Ideal) x0 x1 x3 (ix3 b r k) = weight (row x0 x1 x3 b r) k := by
  rw [val_main_v21_apply, val_main_v20_apply, val_main_v19_apply, exp_at]
  have e : idx_main_v19 (idx_main_v20 (ix3 b r k)) = ix2 b r :=
    funext fun a => Fin.ext (by match a with | ⟨0, _⟩ => rfl | ⟨1, _⟩ => rfl)
  rw [e, sum_at]
  rfl

/-- The reference's result is the specification, at every index. -/
theorem ref_eq (x0 x1 x2 : (⟨Cert.ReferenceIdeal.S16x2048x64, .f32⟩ : BufTy).Contents (Elt Ideal)) (x3 : (⟨Cert.ReferenceIdeal.S16, .i32⟩ : BufTy).Contents (Elt Ideal)) :
    Cert.ReferenceIdeal.Read.val_main_v22 (F := Ideal) x0 x1 x2 x3 = Cert.Attn.attention x0 x1 x2 x3 := by
  funext i
  obtain ⟨b, r, d, rfl⟩ : ∃ (b : Fin 16) (r : Fin 2048) (d : Fin 64), i = ix3 b r d := ⟨i 0, i 1, i 2, eq_ix3 i⟩
  rw [attention_ix3, val_main_v22_apply]
  unfold attentionAt attend softmaxDot
  refine Finset.sum_congr rfl fun k _ => ?_
  have el : lidx_main_v22 (ix3 b r d) k = ix3 b r k :=
    funext fun a => Fin.ext (by match a with | ⟨0, _⟩ => rfl | ⟨1, _⟩ => rfl | ⟨2, _⟩ => rfl)
  have er : ridx_main_v22 (ix3 b r d) k = ix3 b k d :=
    funext fun a => Fin.ext (by match a with | ⟨0, _⟩ => rfl | ⟨1, _⟩ => rfl | ⟨2, _⟩ => rfl)
  rw [el, er, weight_at]
  rfl

end Cert.ReferenceIdeal.RefValue

end
-- ==== Proof.lean ====
/-
  Masked scaled dot-product attention: a kernel that handles one batch per grid point, against a reference that
  handles all batches at once.  Over the extended reals both compute, at batch `b`, query row `r`, column `d`,

      Σ_k  exp (x_k − M) / (Σ_k' exp (x_k' − M)) · V[b,k,d],
      x_k = −1e6 where k is at or past the batch's valid length, else (Σ_e Q[b,r,e] · K[b,k,e]) · 0.125,
      M   = the maximum of the x_k, folded from −∞

  (the specification, Proof/Spec.lean).  The kernel scales by the literal 0.125 and the reference divides by the
  square root of 64: one function of every extended real, finite or not (Proof/Consts.lean), so the precondition
  is never opened.  The reference also takes the row maximum once more against −∞, which changes nothing.

  The kernel side (Proof/KernelPiece.lean, KernelPayload.lean, KernelValue.lean): what one grid point leaves in its
  output block is the body's second payload applied to the first; read at an index these are the specification's
  weights and scores of that batch's blocks; the sixteen blocks cover the result array.  The reference side
  (Proof/RefValue.lean): its whole-array stages read at an index, one after the other, are the same specification.
  No index map of the kernel reads the table of valid lengths, so the frames hold for every contents of it.
-/
import proofs.«403634_j34299608826646_1_alg».proof.Defs
import proofs.«403634_j34299608826646_1_alg».proof.Proof.Gen.Kernel
import proofs.«403634_j34299608826646_1_alg».proof.Proof.Gen.Kernel.Skeleton
import proofs.«403634_j34299608826646_1_alg».proof.Proof.Gen.Kernel.Launch
import proofs.«403634_j34299608826646_1_alg».proof.Proof.Gen.Kernel.Points
import proofs.«403634_j34299608826646_1_alg».proof.Proof.Gen.Kernel.Frame
import proofs.«403634_j34299608826646_1_alg».proof.Proof.Gen.KernelIdeal
import proofs.«403634_j34299608826646_1_alg».proof.Proof.Gen.KernelIdeal.Skeleton
import proofs.«403634_j34299608826646_1_alg».proof.Proof.Gen.KernelIdeal.Launch
import proofs.«403634_j34299608826646_1_alg».proof.Proof.Gen.KernelIdeal.Points
import proofs.«403634_j34299608826646_1_alg».proof.Proof.Gen.KernelIdeal.Frame
import proofs.«403634_j34299608826646_1_alg».proof.Proof.Gen.ReferenceIdeal
import proofs.«403634_j34299608826646_1_alg».proof.Proof.Gen.ReferenceIdeal.Run
import proofs.«403634_j34299608826646_1_alg».proof.Proof.Gen.ReferenceIdeal.Read
import proofs.«403634_j34299608826646_1_alg».proof.Proof.Gen.Pre_finite_inputs
import proofs.«403634_j34299608826646_1_alg».proof.Proof.KernelValue
import proofs.«403634_j34299608826646_1_alg».proof.Proof.RefValue
import Idealize.ShloMosaic.Adequacy
import Idealize.ShloMosaic.Init

noncomputable section

namespace Cert.Proof

open Idealize.ShloMosaic Idealize.ShloMosaic.TcCoe Idealize.SL.Sem

/-- At the word-level instance too, no index map reads the table of lengths: the side condition is `True`. -/
theorem ok_words (m : (ℓ : Loc Cert.Kernel.nD Cert.Kernel.τ Cert.Kernel.sig) → Buf (Elt Bits) ℓ) : Cert.Kernel.Gen.Ok m := by
  show Cert.Kernel.ok0 _
  unfold Cert.Kernel.ok0
  trivial

theorem frame_words : Cert.frame_Kernel := fun m ρ _ => Cert.Kernel.Gen.frame m ρ (ok_words m)

theorem frame_ideal : Cert.frame_KernelIdeal := fun m ρ _ => Cert.KernelIdeal.Gen.frame m ρ (Cert.KernelIdeal.Attn.ok m)

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the attention function of the (agreeing) argument arrays. -/
theorem algebraic : Cert.algebraic_KernelIdeal_ReferenceIdeal := by
  intro m ρ m' ρ' _ hagree
  refine ⟨fun c => Cert.KernelIdeal.Attn.result m c, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_words, frame_ideal, frame_reference, preserves, algebraic⟩

end Cert.Proof

end
